-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel

variable [Facts]

def fn {F : FTy → Type} [FloatOps F] (main_arg0 : FVec F S131072x512 .f32) (main_arg1 : IVec S131072 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  main_v3
-- ==== Kernel.lean ====
abbrev S131072x512 : Shape := ⟨2, ![131072, 512]⟩
abbrev S131072 : Shape := ⟨1, ![131072]⟩
abbrev S131072x1 : Shape := ⟨2, ![131072, 1]⟩
abbrev S4096x512 : Shape := ⟨2, ![4096, 512]⟩
abbrev S4096x1 : Shape := ⟨2, ![4096, 1]⟩

abbrev nBuf : Space → Nat
  | .hbm => 4
  | .vmem => 6
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S131072x1, .i32⟩
  | .hbm, ⟨3, _⟩ => ⟨S131072x512, .f32⟩
  | .local _ .vmem, ⟨0, _⟩ => ⟨S4096x512, .f32⟩
  | .local _ .vmem, ⟨1, _⟩ => ⟨S4096x512, .f32⟩
  | .local _ .vmem, ⟨2, _⟩ => ⟨S4096x1, .i32⟩
  | .local _ .vmem, ⟨3, _⟩ => ⟨S4096x1, .i32⟩
  | .local _ .vmem, ⟨4, _⟩ => ⟨S4096x512, .f32⟩
  | .local _ .vmem, ⟨5, _⟩ => ⟨S4096x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S131072_S131072x1 : S131072.ShapeCasts S131072x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x512_d1_w32 : S4096x512.Iotas .tc 32 [1]
  broadcasts_S4096x1_S4096x512 : S4096x1.Broadcasts S4096x512
  natLt_1_32 : 1 < 32
  inb_S4096x512_S4096x512_0_0 : ∀ a, (![0, 0] : Fin 2 → Nat) a + S4096x512.size a ≤ S4096x512.size a
  h_S4096x512 : 0 < S4096x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .i32 = 32 ∨ (Rect.block (s := S131072x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S131072x512.size a
  hwx0_2 : ∀ i : grid0.Coords, EltTy.bits .f32 = 32 ∨ (Rect.block (s := S131072x512) S4096x512.size (cc0_transform_2 i) (hinb0_2 i)).WholeWords (EltTy.packing .f32)

variable [Facts₀]

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x512 : Shape := ⟨2, ![131072, 512]⟩
abbrev S131072 : Shape := ⟨1, ![131072]⟩
abbrev S_ : Shape := ⟨0, ![]⟩
abbrev S512 : Shape := ⟨1, ![512]⟩
abbrev S1x512 : Shape := ⟨2, ![1, 512]⟩
abbrev S131072x1 : Shape := ⟨2, ![131072, 1]⟩

abbrev nBuf : Space → Nat
  | .hbm => 21
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S_, .i32⟩
  | .hbm, ⟨3, _⟩ => ⟨S131072, .i32⟩
  | .hbm, ⟨4, _⟩ => ⟨S131072, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S131072, .i32⟩
  | .hbm, ⟨9, _⟩ => ⟨S131072, .i32⟩
  | .hbm, ⟨10, _⟩ => ⟨S_, .i32⟩
  | .hbm, ⟨11, _⟩ => ⟨S131072, .i32⟩
  | .hbm, ⟨12, _⟩ => ⟨S131072, .i32⟩
  | .hbm, ⟨13, _⟩ => ⟨S512, .i32⟩
  | .hbm, ⟨14, _⟩ => ⟨S1x512, .i32⟩
  | .hbm, ⟨15, _⟩ => ⟨S131072x1, .i32⟩
  | .hbm, ⟨16, _⟩ => ⟨S131072x512, .i32⟩
  | .hbm, ⟨17, _⟩ => ⟨S131072x512, .i32⟩
  | .hbm, ⟨18, _⟩ => ⟨S131072x512, .i1⟩
  | .hbm, ⟨19, _⟩ => ⟨S131072x512, .f32⟩
  | .hbm, ⟨20, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_c_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S512_S1x512_1 : S512.BroadcastsInDim S1x512 (![1] : Fin 1 → Fin S1x512.rank)
  bcast_S131072_S131072x1_0 : S131072.BroadcastsInDim S131072x1 (![0] : Fin 1 → Fin S131072x1.rank)
  bcast_S1x512_S131072x512_0_1 : S1x512.BroadcastsInDim S131072x512 (![0, 1] : Fin 2 → Fin S131072x512.rank)
  bcast_S131072x1_S131072x512_0_1 : S131072x1.BroadcastsInDim S131072x512 (![0, 1] : Fin 2 → Fin S131072x512.rank)

variable [Facts₀]

class Facts : Prop extends Facts₀ where

variable [Facts]
-- ==== Proof.MaskSpec.lean ====
/-
  What both programs compute, stated once, index by index, with no program in sight.

  A row of the input carries one 32-bit word g (how many groups of eight columns the row keeps).  The row's CUTOFF
  is the word 8·g (the product of words, wrapping as words do) clamped as a signed word into [8, 512]: first the
  signed maximum with 8, then the signed minimum with 512.  Column j of the row is KEPT when j, as a word, is
  below the cutoff in the signed order; the kept bit read as a number is 1 or 0, and the result's entry (r, j) is
  the input's entry times that number, a product of extended reals.

  The cutoffs reach the two programs in two layouts: as a column [131072, 1] (the kernel stages the row words as a
  one-column matrix) and as a plain vector [131072].  `maskedCol` and `masked` are the same function over the
  two layouts, and `maskedCol_reshape` says so: the column that is the vector re-laid row-major holds at (r, 0)
  the vector's entry r.
-/
import Idealize.ShloMosaic.Lib.ValueIdx
import Idealize.ShloMosaic.Lib.Pipeline.Value

noncomputable section

namespace Cert.NestedMask

open Idealize.ShloMosaic Idealize.ShloMosaic.ValueIdx

/-- A row's cutoff word: eight times its group count, clamped into [8, 512] in the signed order of words. -/
def cutoff (g : BitVec 32) : BitVec 32 := IntOp.minsi 512#32 (IntOp.maxsi 8#32 (IntOp.muli g 8#32))

/-- The bit "column `j` lies below the cutoff of a row whose group count is `g`", words compared signed. -/
def keepBit (g : BitVec 32) (j : Nat) : BitVec 1 := IntOp.cmpi .slt (BitVec.ofNat 32 j) (cutoff g)

/-- The row index of an entry of the [131072, 512] array, as an index of the one-column matrix of row words. -/
abbrev colIdx (i : (⟨2, ![131072, 512]⟩ : Shape).Idx) : (⟨2, ![131072, 1]⟩ : Shape).Idx :=
  ix2 (n0 := 131072) (n1 := 1) ⟨(i 0).val, idx2_lt0 i⟩ ⟨0, Nat.one_pos⟩

/-- The row index of an entry of the [131072, 512] array, as an index of the vector of row words. -/
abbrev rowIdx (i : (⟨2, ![131072, 512]⟩ : Shape).Idx) : (⟨1, ![131072]⟩ : Shape).Idx :=
  ix1 (n := 131072) ⟨(i 0).val, idx2_lt0 i⟩

/-- The masked array over a COLUMN of row words: entry (r, j) is the input's entry times the kept bit of column
    `j` under row `r`'s word, the bit read as the number 0 or 1. -/
def maskedCol (X : (⟨2, ![131072, 512]⟩ : Shape).Idx → EReal) (gc : (⟨2, ![131072, 1]⟩ : Shape).Idx → BitVec 32) :
    (⟨2, ![131072, 512]⟩ : Shape).Idx → EReal :=
  fun i => X i * (((keepBit (gc (colIdx i)) (i 1).val).toNat : ℝ) : EReal)

/-- The masked array over a VECTOR of row words. -/
def masked (X : (⟨2, ![131072, 512]⟩ : Shape).Idx → EReal) (g : (⟨1, ![131072]⟩ : Shape).Idx → BitVec 32) :
    (⟨2, ![131072, 512]⟩ : Shape).Idx → EReal :=
  fun i => X i * (((keepBit (g (rowIdx i)) (i 1).val).toNat : ℝ) : EReal)

/-- The vector of row words re-laid as a one-column matrix holds at (r, 0) the vector's entry r: both have
    row-major position r. -/
theorem reshape_col (g : (⟨1, ![131072]⟩ : Shape).Idx → BitVec 32)
    (h : (⟨1, ![131072]⟩ : Shape).ShapeCasts ⟨2, ![131072, 1]⟩) (i : (⟨2, ![131072, 512]⟩ : Shape).Idx) :
    shapeCast ⟨2, ![131072, 1]⟩ g h (colIdx i) = g (rowIdx i) := by
  refine shapeCast_apply g h (colIdx i) (rowIdx i) ?_
  rw [Shape.rowMajor_val_one, Shape.rowMajor_val_two]
  show (i 0).val = (i 0).val * 1 + 0
  omega

/-- So the masked array over the re-laid column is the masked array over the vector. -/
theorem maskedCol_reshape (X : (⟨2, ![131072, 512]⟩ : Shape).Idx → EReal) (g : (⟨1, ![131072]⟩ : Shape).Idx → BitVec 32)
    (h : (⟨1, ![131072]⟩ : Shape).ShapeCasts ⟨2, ![131072, 1]⟩) :
    maskedCol X (shapeCast ⟨2, ![131072, 1]⟩ g h) = masked X g := by
  funext i
  unfold maskedCol masked
  rw [reshape_col g h i]

end Cert.NestedMask

end
-- ==== Proof.StoredEntry.lean ====
/-
  The kernel body's one store, read at an entry of the block.

  The body loads the block's column of row words and its [4096, 512] slab of the input, forms each row's cutoff
  (eight times the word, clamped into [8, 512] as signed words), compares a column counter against the cutoff
  broadcast along the row, widens the resulting bit to a word, converts the word to a float and multiplies the
  slab by it.  At entry (p, q) of the block that is the slab's entry times the kept bit of column q under row p's
  word read as 0 or 1: the counter reads q there, the broadcast reads row p's cutoff, and a bit widened to 32 bits
  and read signed is the bit read unsigned.
-/
import proofs.«166814_j60430189854823_1_alg».proof.Proof.Gen.KernelIdeal.Skeleton
import proofs.«166814_j60430189854823_1_alg».proof.Proof.MaskSpec
import Idealize.ShloMosaic.Lib.KernelVsHost

noncomputable section

namespace Cert.NestedMask

open Idealize.ShloMosaic Idealize.ShloMosaic.ValueIdx Cert.KernelIdeal Cert.KernelIdeal.Gen

/-- The column counter of the block reads the column: a counter along axis 1, at (p, q), is the word of q. -/
theorem counter_apply (p : Fin 4096) (q : Fin 512) :
    iota .tc S4096x512 32 [1] iota_S4096x512_d1_w32 (ix2 p q) = BitVec.ofNat 32 q.val :=
  iota_single_apply .tc S4096x512 32 1 iota_S4096x512_d1_w32 (ix2 p q)

/-- A one-column matrix broadcast along the rows reads, at (p, q), its entry (p, 0). -/
theorem alongRow_apply (v : IVec S4096x1 32) (p : Fin 4096) (q : Fin 512) :
    broadcastTo S4096x512 v broadcasts_S4096x1_S4096x512 (ix2 p q) = v (ix2 p 0) :=
  broadcastTo_apply v broadcasts_S4096x1_S4096x512 (ix2 p q) (ix2 p 0) (fun a => match a with
    | ⟨0, _⟩ => by show p.val = if (4096 : Nat) = 1 then 0 else p.val; rw [if_neg (by decide)]
    | ⟨1, _⟩ => by show 0 = if (1 : Nat) = 1 then 0 else q.val; rw [if_pos rfl])

/-- THE STORED VALUE AT AN ENTRY: the slab's entry times the kept bit, as a number. -/
theorem stored_apply (gcol : Vec Ideal S4096x1 .i32) (x : Vec Ideal S4096x512 .f32) (p : Fin 4096) (q : Fin 512) :
    k0_pay1 (F := Ideal) gcol x (ix2 p q) = x (ix2 p q) * (((keepBit (gcol (ix2 p 0)) q.val).toNat : ℝ) : EReal) := by
  unfold k0_pay1
  dsimp only
  rw [sitofp_extui_eq_uitofp, shapeCast_self]
  show x (ix2 p q) * (((IntOp.cmpi .slt (iota .tc S4096x512 32 [1] iota_S4096x512_d1_w32 (ix2 p q))
      (broadcastTo S4096x512 (minsi (broadcast S4096x1 512#32) (maxsi (broadcast S4096x1 8#32) (muli gcol (broadcast S4096x1 8#32))))
        broadcasts_S4096x1_S4096x512 (ix2 p q))).toNat : ℝ) : EReal) = _
  rw [counter_apply, alongRow_apply]
  rfl

/-- The same at any index of the block, its coordinates read off the index: row `j 0`'s word, column `j 1`. -/
theorem stored_at (gcol : Vec Ideal S4096x1 .i32) (x : Vec Ideal S4096x512 .f32) (j : S4096x512.Idx) :
    k0_pay1 (F := Ideal) gcol x j
      = x j * (((keepBit (gcol (ix2 (n0 := 4096) (n1 := 1) ⟨(j 0).val, idx2_lt0 j⟩ ⟨0, Nat.one_pos⟩)) (j 1).val).toNat : ℝ) : EReal) := by
  obtain ⟨p, q, rfl⟩ : ∃ (p : Fin 4096) (q : Fin 512), j = ix2 p q := ⟨j 0, j 1, eq_ix2 j⟩
  exact stored_apply gcol x p q

end Cert.NestedMask

end
-- ==== Proof.KernelArray.lean ====
/-
  From the blocks to the whole array: what the kernel's result array holds after the run.

  The grid has 32 points; point t stages rows 4096·t … 4096·t + 4095 of the input, the same rows of the one-column
  matrix of row words, and writes back the same rows of the result, every block spanning all 512 columns.  The
  one-column matrix is the vector of row words re-laid row-major by the host before the launch.  An entry of block
  t of the result is therefore the masked array's entry at the block's place in the array: the slab's entry is the
  input's there, the row's word is the column's at that row, and the column inside the block is the array's column
  (the blocks start at column 0).  The 32 blocks cover every row, so the result array IS the masked array, first
  over the column of row words and then, the column being the re-laid vector, over the vector itself.
-/
import proofs.«166814_j60430189854823_1_alg».proof.Proof.Gen.KernelIdeal.Value
import proofs.«166814_j60430189854823_1_alg».proof.Proof.StoredEntry
import Idealize.ShloMosaic.Lib.StableHlo.Run

set_option maxRecDepth 16384

noncomputable section

namespace Cert.NestedMask

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The input as the region finds it, at its literal type: an array of extended reals. -/
abbrev inputFound (c : Dev nD) : S131072x512.Idx → EReal := V m c main_arg0

/-- The one-column matrix of row words as the region finds it, at its literal type. -/
abbrev wordsFound (c : Dev nD) : S131072x1.Idx → BitVec 32 := V m c main_v0

/-- The body's accesses start at the block's origin. -/
theorem origin : (![0, 0] : Fin 2 → Nat) = fun _ => 0 := funext fun a => by fin_cases a <;> rfl

/-- The one-column matrix the region finds is the vector of row words re-laid: the one host operation before
    the launch is that reshape. -/
theorem column_found (c : Dev nD) :
    (V m c main_v0 : S131072x1.Idx → BitVec 32)
      = shapeCast S131072x1 (m ((c : Thread nD τ).loc main_arg1)) shapeCasts_S131072_S131072x1 := by
  dsimp only [Gen.V, Gen.hostOps0]
  after_results
  rfl

/-- Where the blocks sit, decided over the 32 grid points: the input's block and the row words' block are on the
    result's block row; every block starts at column 0; the block rows run to 31. -/
theorem block_rows : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (0 : Fin 2) ≤ 31 ∧ win0_2.index t (1 : Fin 2) = 0 :=
  (by decide +kernel : ∀ t : Fin grid0.N, _)

/-- Every block row of the result is some point's. -/
theorem block_onto : ∀ q : Fin 32, ∃ t : Fin cfg0.N, win0_2.index t = ![q.val, 0] :=
  (by decide +kernel : ∀ q : Fin 32, ∃ t : Fin grid0.N, win0_2.index t = ![q.val, 0])

/-- WHAT POINT `t` WRITES BACK is block `t` of the masked array over the input and the column of row words as
    the region finds them. -/
theorem flushed_masked (c : Dev nD) (t : Fin cfg0.N) :
    (dats m 0 c).flushed 2 t
      = ((cfg0.win 2).blk t).view.read (Elt Ideal) (maskedCol (V m c main_arg0) (V m c main_v0)) := by
  rw [Cert.KernelIdeal.Value.flushed2]
  unfold out0_2
  rw [View.canon_unit_zero origin]
  simp only [View.ld_unit_zero (S := S4096x512) origin, View.ld_unit_zero (S := S4096x1) origin]
  obtain ⟨e0, e1, e2, e3, e4, e5⟩ := block_rows t
  refine funext fun (j : S4096x512.Idx) => ?_
  refine (stored_at (iblk m c 1 t) (iblk m c 0 t) j).trans ?_
  show inputFound m c (((cfg0.win 0).blk t).view.emb j)
        * (((keepBit (wordsFound m c (((cfg0.win 1).blk t).view.emb
            (ix2 (n0 := 4096) (n1 := 1) ⟨(j 0).val, idx2_lt0 j⟩ ⟨0, Nat.one_pos⟩))) (j 1).val).toNat : ℝ) : EReal)
      = inputFound m c (((cfg0.win 2).blk t).view.emb j)
        * (((keepBit (wordsFound m c (colIdx (((cfg0.win 2).blk t).view.emb j)))
            ((((cfg0.win 2).blk t).view.emb j) 1).val).toNat : ℝ) : EReal)
  have h0 : ((cfg0.win 0).blk t).view.emb j = ((cfg0.win 2).blk t).view.emb j := by
    funext a; apply Fin.ext
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 512 + 1 * (j 1).val = win0_2.index t (1 : Fin 2) * 512 + 1 * (j 1).val; omega
  have h1 : ((cfg0.win 1).blk t).view.emb (ix2 (n0 := 4096) (n1 := 1) ⟨(j 0).val, idx2_lt0 j⟩ ⟨0, Nat.one_pos⟩)
      = colIdx (((cfg0.win 2).blk t).view.emb j) := by
    funext a; apply Fin.ext
    match a with
    | ⟨0, _⟩ => show win0_1.index t (0 : Fin 2) * 4096 + 1 * (j 0).val = win0_2.index t (0 : Fin 2) * 4096 + 1 * (j 0).val; omega
    | ⟨1, _⟩ => show win0_1.index t (1 : Fin 2) * 1 + 1 * 0 = 0; omega
  have h2 : ((((cfg0.win 2).blk t).view.emb j) 1).val = (j 1).val := by
    show win0_2.index t (1 : Fin 2) * 512 + 1 * (j 1).val = (j 1).val; omega
  rw [h0, h1, h2]

/-- An entry of the array is in point `t`'s block when each coordinate is in the block's range on its axis. -/
theorem mem_block (t : Fin cfg0.N) (i : S131072x512.Idx) :
    i ∈ ((cfg0.win 2).blk t).view.set ↔ ∀ a : Fin 2, win0_2.index t a * S4096x512.size a ≤ (i a).val
      ∧ (i a).val < win0_2.index t a * S4096x512.size a + S4096x512.size a := by
  show i ∈ ((View.whole main_v1).slice (win0_2.rect t)).set ↔ _
  rw [View.set_slice_whole, Rect.mem_set_unit]
  exact Iff.rfl

/-- Every entry of the result is in some point's block: row `r` is in block row `r / 4096`. -/
theorem covered (i : S131072x512.Idx) :
    ∃ t : Fin cfg0.N, (cfg0.win 2).flush t = true ∧ i ∈ ((cfg0.win 2).blk t).view.set := by
  have hi0 : (i 0).val < 131072 := (i 0).isLt
  have hi1 : (i 1).val < 512 := (i 1).isLt
  obtain ⟨t, ht⟩ := block_onto ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 512 ≤ (i 1).val ∧ (i 1).val < win0_2.index t (1 : Fin 2) * 512 + 512; omega

/-- THE RESULT ARRAY after the run is the masked array of the two argument arrays. -/
theorem result_masked (c : Dev nD) :
    (dats m 0 c).arrAt 2 cfg0.N
      = masked (m ((c : Thread nD τ).loc main_arg0)) (m ((c : Thread nD τ).loc main_arg1)) :=
  ((dats m 0 c).arrAt_eq_of_cover 2 (maskedCol (V m c main_arg0) (V m c main_v0))
      (fun t _ => flushed_masked m c t) covered).trans (by
    rw [V_main_arg0 m c, column_found m c]
    exact maskedCol_reshape _ _ _)

/-- The kernel's run, read: the result array ends at the masked array of the arguments, the arguments unchanged. -/
theorem kernel_run : θ_run defs (onTc (τ := τ) (main (F := Ideal))) ⟨m, fun _ => 0, ρ⟩ fun r => ∀ c : Dev nD,
      r.2.mem ((c : Thread nD τ).loc main_v1)
        = masked (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_masked m c), (h c).2⟩)
    (Cert.KernelIdeal.Value.run_blocks m ρ)

end Cert.NestedMask

end
-- ==== Proof.ReferenceEntry.lean ====
/-
  The reference, read at an entry.

  The reference forms every row's cutoff on the vector of row words (eight times the word, then the signed maximum
  with 8 and the signed minimum with 512, the two bounds broadcast from scalars), lays the cutoffs out as a column
  and a column counter 0 … 511 as a row, broadcasts both to [131072, 512], compares them signed, converts the bit to
  a float and multiplies the input by it.  Read at entry (r, j), every broadcast reads its operand at the
  coordinate it repeats, so the compared words are the word of j and row r's cutoff: the entry is the input's entry
  times the kept bit as a number, the masked array of the specification.
-/
import proofs.«166814_j60430189854823_1_alg».proof.Proof.Gen.ReferenceIdeal.Read
import proofs.«166814_j60430189854823_1_alg».proof.Proof.MaskSpec

noncomputable section

namespace Cert.NestedMask

open Idealize.ShloMosaic Idealize.ShloMosaic.ValueIdx Cert.ReferenceIdeal Cert.ReferenceIdeal.Read

/-- Through the two broadcasts of the cutoffs (vector to column, column to matrix) entry (r, j) reads row r. -/
theorem cutoff_row (i : S131072x512.Idx) : idx_main_v5 (idx_main_v7 i) = rowIdx i :=
  funext fun a => match a with | ⟨0, _⟩ => rfl

/-- Through the two broadcasts of the counter (vector to row, row to matrix) entry (r, j) reads column j. -/
theorem counter_col (i : S131072x512.Idx) : ((idx_main_v4 (idx_main_v6 i)) 0).val = (i 1).val := rfl

/-- THE REFERENCE'S RESULT is the masked array over the vector of row words. -/
theorem reference_masked (X : (⟨S131072x512, .f32⟩ : BufTy).Contents (Elt Ideal)) (g : (⟨S131072, .i32⟩ : BufTy).Contents (Elt Ideal)) :
    val_main_v10 (F := Ideal) X g = masked X g := by
  funext i
  unfold masked
  rw [val_main_v10_apply, val_main_v9_apply, val_main_v8_apply, val_main_v6_apply, val_main_v4_apply, val_main_v3_apply,
    val_main_v7_apply, val_main_v5_apply, val_main_v2_apply, val_main_call0_v4_apply, val_main_call0_v3_apply,
    val_main_c_1_apply, val_main_call0_v2_apply, val_main_call0_v1_apply, val_main_call0_v0_apply, val_main_c_0_apply,
    val_main_v1_apply, val_main_v0_apply, val_main_c_apply, counter_col, cutoff_row]
  rfl

end Cert.NestedMask

end
-- ==== Proof.lean ====
/-
  Nested dropout by a per-row cutoff: the kernel against its jnp reference, over the extended reals.

  Each of the 131072 rows of the input carries a 32-bit word g.  Both programs form the row's cutoff, 8·g as a word
  clamped into [8, 512] in the signed order, and multiply entry (r, j) of the input by 1 when the word of j is below
  row r's cutoff (signed) and by 0 otherwise.  The kernel does it block by block, 32 blocks of 4096 full rows, on a
  column of row words the host re-lays from the vector before the launch, and makes the number from the compared bit
  by widening it to a word and converting the word signed; the reference does it on whole arrays, broadcasting the
  cutoffs down a column and a column counter along a row, and converts the bit unsigned.  A bit widened and read
  signed is the bit read unsigned, so the two results are one function of the arguments, the masked array of
  Proof/MaskSpec.lean.  No law of arithmetic beyond that is used: the products on the two sides are the same
  products, so the finiteness of the input is never opened.

  The kernel's result array is read off its generated blockwise run in Proof/KernelArray.lean (the stored value at an
  entry is Proof/StoredEntry.lean), the reference's off its generated run and read-at-an-index lemmas in
  Proof/ReferenceEntry.lean.  The three frames are the generated ones (the reference's is its run with the result
  dropped), and the idealization rewrote nothing, so its conjunct is `True`.
-/
import proofs.«166814_j60430189854823_1_alg».proof.Defs
import proofs.«166814_j60430189854823_1_alg».proof.Proof.Gen.Kernel
import proofs.«166814_j60430189854823_1_alg».proof.Proof.Gen.Kernel.Skeleton
import proofs.«166814_j60430189854823_1_alg».proof.Proof.Gen.Kernel.Launch
import proofs.«166814_j60430189854823_1_alg».proof.Proof.Gen.Kernel.Points
import proofs.«166814_j60430189854823_1_alg».proof.Proof.Gen.Kernel.Frame
import proofs.«166814_j60430189854823_1_alg».proof.Proof.Gen.KernelIdeal
import proofs.«166814_j60430189854823_1_alg».proof.Proof.Gen.KernelIdeal.Skeleton
import proofs.«166814_j60430189854823_1_alg».proof.Proof.Gen.KernelIdeal.Launch
import proofs.«166814_j60430189854823_1_alg».proof.Proof.Gen.KernelIdeal.Points
import proofs.«166814_j60430189854823_1_alg».proof.Proof.Gen.KernelIdeal.Frame
import proofs.«166814_j60430189854823_1_alg».proof.Proof.Gen.ReferenceIdeal
import proofs.«166814_j60430189854823_1_alg».proof.Proof.Gen.KernelIdeal.Value
import proofs.«166814_j60430189854823_1_alg».proof.Proof.Gen.ReferenceIdeal.Run
import proofs.«166814_j60430189854823_1_alg».proof.Proof.Gen.ReferenceIdeal.Read
import proofs.«166814_j60430189854823_1_alg».proof.Proof.Gen.Pre_finite_inputs
import proofs.«166814_j60430189854823_1_alg».proof.Proof.KernelArray
import proofs.«166814_j60430189854823_1_alg».proof.Proof.ReferenceEntry
import Idealize.ShloMosaic.Adequacy
import Idealize.ShloMosaic.Init

noncomputable section

namespace Cert.Proof

open Idealize.ShloMosaic Idealize.ShloMosaic.TcCoe Idealize.SL.Sem

/-- The word-level kernel runs and keeps its arguments: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the input and on the row words, both programs end with the masked array of those
    arguments as their result: the kernel by its blocks, the reference by its stages read at an entry. -/
theorem algebraic : Cert.algebraic_KernelIdeal_ReferenceIdeal := by
  intro m ρ m' ρ' _ hagree
  refine ⟨fun c => Cert.NestedMask.masked (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.NestedMask.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.NestedMask.reference_masked, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
